-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩

class Facts : Prop where
  reducesTo_S_S_d : S_.ReducesTo [] S_
  h_S_ : 0 < S_.numel
  bcast_S_S16384 : S_.BroadcastsInDim S16384 (![] : Fin 0 → Fin S16384.rank)
  reducesTo_S16384_S_d0 : S16384.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_v12 : IVec S_ 1) (main_v15 : IVec S8192x1 1) (main_c_5 : IVec S_ 1) : IVec S_ 1 :=
  let main_v16 : IVec S_ 1 := (fun x v => Host.reduce IntOp.andi x v reducesTo_S8192x1_S_d0_1 h_S_) main_v15 main_c_5
  let main_v17 : IVec S_ 1 := andi main_v12 main_v16
  main_v17

def fn {F : FTy → Type} [FloatOps F] (main_arg0 : FVec F S_ .f32) (main_arg1 : FVec F S16384 .f32) (main_arg2 : FVec F S8192x8192 .f32) (main_arg3 : FVec F S8192x1 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S16384 .f32 := Host.absf main_arg1
  let main_cst_0 : FVec F S_ .f32 := constant S_ .f32 0x7F800000#32
  let main_v4 : FVec F S16384 .f32 := broadcastInDim S16384 ![] bcast_S_S16384 main_cst_0
  let main_v5 : IVec S16384 1 := cmpf .olt main_v3 main_v4
  let main_c_1 : IVec S_ 1 := constantI S_ 1 1#1
  let main_v6 : IVec S_ 1 := (fun x v => Host.reduce IntOp.andi x v reducesTo_S16384_S_d0 h_S_) main_v5 main_c_1
  let main_v7 : IVec S_ 1 := andi main_v2 main_v6
  let main_v8 : FVec F S8192x8192 .f32 := Host.absf main_arg2
  let main_cst_2 : FVec F S_ .f32 := constant S_ .f32 0x7F800000#32
  let main_v9 : FVec F S8192x8192 .f32 := broadcastInDim S8192x8192 ![] bcast_S_S8192x8192 main_cst_2
  let main_v10 : IVec S8192x8192 1 := cmpf .olt main_v8 main_v9
  let main_c_3 : IVec S_ 1 := constantI S_ 1 1#1
  let main_v11 : IVec S_ 1 := (fun x v => Host.reduce IntOp.andi x v reducesTo_S8192x8192_S_d0_1 h_S_) main_v10 main_c_3
  let main_v12 : IVec S_ 1 := andi main_v7 main_v11
  let main_v13 : FVec F S8192x1 .f32 := Host.absf main_arg3
  let main_cst_4 : FVec F S_ .f32 := constant S_ .f32 0x7F800000#32
  let main_v14 : FVec F S8192x1 .f32 := broadcastInDim S8192x1 ![] bcast_S_S8192x1 main_cst_4
  let main_v15 : IVec S8192x1 1 := cmpf .olt main_v13 main_v14
  let main_c_5 : IVec S_ 1 := constantI S_ 1 1#1
  fn_part1 (F := F) main_v12 main_v15 main_c_5
-- ==== Kernel.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩
abbrev S8192 : Shape := ⟨1, ![8192]⟩
abbrev S1x8192 : Shape := ⟨2, ![1, 8192]⟩
abbrev S256x8192 : Shape := ⟨2, ![256, 8192]⟩
abbrev S256x1 : Shape := ⟨2, ![256, 1]⟩
abbrev S256 : Shape := ⟨1, ![256]⟩

abbrev nBuf : Space → Nat
  | .hbm => 14
  | .vmem => 13
  | .smem => 0
  | _ => 0

abbrev bufTy : (tb : Table) → Fin (tcTables nBuf tb) → BufTy
  | .hbm, ⟨0, _⟩ => ⟨S_, .f32⟩
  | .hbm, ⟨1, _⟩ => ⟨S16384, .f32⟩
  | .hbm, ⟨2, _⟩ => ⟨S8192x8192, .f32⟩
  | .hbm, ⟨3, _⟩ => ⟨S8192x1, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S16384, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16384_S8192_0 : S16384.Slices ![0] S8192
  slices_S16384_S8192_8192 : S16384.Slices ![8192] S8192
  shapeCasts_S8192_S1x8192 : S8192.ShapeCasts S1x8192
  shapeCasts_S8192_S8192x1 : S8192.ShapeCasts S8192x1
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S8192x1_S8192 : S8192x1.ShapeCasts S8192
  concatenates_S8192_S8192_S16384_d0 : Shape.Concatenates [S8192, S8192] S16384 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)

variable [Facts₀]

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S_, .f32⟩
  | .hbm, ⟨1, _⟩ => ⟨S16384, .f32⟩
  | .hbm, ⟨2, _⟩ => ⟨S8192x8192, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192, .f32⟩
  | .hbm, ⟨34, _⟩ => ⟨S8192, .f32⟩
  | .hbm, ⟨35, _⟩ => ⟨S16384, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S16384_S8192_0 : S16384.Slices ![0] S8192
  shapeCasts_S8192_S8192x1 : S8192.ShapeCasts S8192x1
  slices_S16384_S8192_8192 : S16384.Slices ![8192] S8192
  bcast_S_S8192x1 : S_.BroadcastsInDim S8192x1 (![] : Fin 0 → Fin S8192x1.rank)
  shapeCasts_S8192x1_S8192 : S8192x1.ShapeCasts S8192
  concatenates_S8192_S8192_S16384_d0 : Shape.Concatenates [S8192, S8192] S16384 0
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Reaction.lean ====
/-
  The right-hand side of a two-variable reaction–diffusion system on 8192 nodes, as ONE function of its data, index by
  index, over the extended reals.

  The state is a pair of node vectors `u` (the activator) and `v` (the recovery variable); `S` is a dense 8192 × 8192
  diffusion operator and `par` a per-node excitability. At node `r`

      pde1 r = (∑ k, S r k · u k) + 8 · u r · (1 − u r) · (u r − par r) − u r · v r
      pde2 r = ε · (8 · u r · (u r − par r − 1) + v r)

  with the products associated to the left exactly as written, and `8`, `1`, `ε` the values of three float words. The
  word for `ε` is never evaluated: it only has to be the same word wherever this function is used.

  Nothing here needs the entries to be finite: the two programs compared against this function differ from it only in
  the ORDER in which the row's 8192 products are added, and a finite sum in a commutative monoid does not depend on
  that order.
-/
import Idealize.ShloMosaic.PureOps.Ideal
import Idealize.ShloMosaic.Lib.ValueIdx

noncomputable section

open scoped BigOperators

namespace Cert.Reaction

open Idealize.ShloMosaic Idealize.ShloMosaic.ValueIdx

/-- A node vector: one extended real per node. -/
abbrev NodeVec : Type := (⟨1, ![8192]⟩ : Shape).Idx → EReal
/-- A node column: the same data laid out as an 8192 × 1 matrix. -/
abbrev NodeCol : Type := (⟨2, ![8192, 1]⟩ : Shape).Idx → EReal
/-- A dense operator on node vectors. -/
abbrev NodeMat : Type := (⟨2, ![8192, 8192]⟩ : Shape).Idx → EReal

/-- The float word of `8.0`, read as an extended real. -/
abbrev rate : EReal := Ideal.ofBits .f32 0x41000000#32
/-- The float word of `1.0`. -/
abbrev unit : EReal := Ideal.ofBits .f32 0x3F800000#32
/-- The float word nearest `−0.01`: the time-scale separation `ε`, carrying the recovery rate's minus sign. -/
abbrev slow : EReal := Ideal.ofBits .f32 0xBC23D70A#32

/-- The activator's rate at one node, from the diffusion term `d` there and the node's `u`, `v`, `par`. -/
def excite (d u v p : EReal) : EReal := d + rate * u * (unit - u) * (u - p) - u * v

/-- The recovery variable's rate at one node. -/
def recover (u v p : EReal) : EReal := slow * (rate * u * (u - p - unit) + v)

/-- Row `r` of the operator applied to the activator: the diffusion term at node `r`. -/
def diffuse (S : NodeMat) (u : NodeVec) (r : Fin 8192) : EReal := ∑ k : Fin 8192, S (ix2 r k) * u (ix1 k)

/-- The activator's rate at every node, as a column. -/
def pde1 (u v : NodeVec) (S : NodeMat) (par : NodeCol) : NodeCol :=
  fun i => excite (diffuse S u (i 0)) (u (ix1 (i 0))) (v (ix1 (i 0))) (par i)

/-- The recovery variable's rate at every node, as a column. -/
def pde2 (u v : NodeVec) (par : NodeCol) : NodeCol :=
  fun i => recover (u (ix1 (i 0))) (v (ix1 (i 0))) (par i)

end Cert.Reaction

end
-- ==== Proof.RefStages.lean ====
/-
  The reference program's two columns are the reaction–diffusion right-hand side.

  The reference slices the state `y` into its two halves `u = y[0:8192]` and `v = y[8192:16384]`, views each as a column,
  and computes `S·u + 8u(1−u)(u−par) − uv` and `ε(8u(u−par−1)+v)` with whole-array operations. Read one entry at a
  time, its matrix product is the sum over `k` of `S r k · u k`, and every other operation acts entrywise, so the two
  columns it builds are `Reaction.pde1` and `Reaction.pde2` of the two halves. The halves themselves are never opened:
  they are the same two slices of `y` on both sides of the comparison.
-/
import proofs.«147740_j16355235463647_1_alg».proof.Proof.Gen.ReferenceIdeal.Read
import proofs.«147740_j16355235463647_1_alg».proof.Proof.Reaction

noncomputable section

namespace Cert.ReferenceIdeal.Stages

open Cert.ReferenceIdeal Cert.ReferenceIdeal.Read Cert.Reaction
open Idealize.ShloMosaic Idealize.ShloMosaic.ValueIdx

/-- A column index `(r, 0)` viewed in the flat vector is `r`: the column's second coordinate is always `0`. -/
theorem col_to_vec (i : S8192x1.Idx) : idx_main_v1 i = ix1 (i 0) := by
  funext a
  match a with
  | ⟨0, _⟩ =>
    apply Fin.ext
    have h1 : (i 1).val < 1 := (i 1).isLt
    show (i 0).val * 1 + (i 1).val = (i 0).val
    omega

/-- The same for the second half's column (the two reshapes have one index map). -/
theorem col_to_vec' (i : S8192x1.Idx) : idx_main_v3 i = ix1 (i 0) := col_to_vec i

/-- The matrix product's left index at `(r, ·)` and contraction coordinate `k` is `(r, k)`. -/
theorem lhs_at (i : S8192x1.Idx) (k : Fin 8192) : lidx_main_v4 i k = ix2 (i 0) k := by
  funext a
  match a with
  | ⟨0, _⟩ => rfl
  | ⟨1, _⟩ => rfl

/-- Its right index, viewed in the flat vector, is `k`. -/
theorem rhs_at (i : S8192x1.Idx) (k : Fin 8192) : idx_main_v1 (ridx_main_v4 i k) = ix1 k := by
  funext a
  match a with
  | ⟨0, _⟩ =>
    apply Fin.ext
    have h1 : (i 1).val < 1 := (i 1).isLt
    show k.val * 1 + (i 1).val = k.val
    omega

/-- The reference's first column: diffusion plus the cubic reaction term minus the coupling `u·v`. -/
theorem first_column (x1 : (⟨S16384, .f32⟩ : BufTy).Contents (Elt Ideal)) (x2 : (⟨S8192x8192, .f32⟩ : BufTy).Contents (Elt Ideal))
    (x3 : (⟨S8192x1, .f32⟩ : BufTy).Contents (Elt Ideal)) :
    val_main_v14 (F := Ideal) x1 x2 x3 = pde1 (val_main_v0 (F := Ideal) x1) (val_main_v2 (F := Ideal) x1) x2 x3 := by
  funext i
  simp only [val_main_v14_apply, val_main_v12_apply, val_main_v4_apply, val_main_v11_apply, val_main_v9_apply,
    val_main_v6_apply, val_main_v5_apply, val_main_cst_apply, val_main_v8_apply, val_main_v7_apply,
    val_main_cst_0_apply, val_main_v10_apply, val_main_v13_apply, val_main_v3_apply, val_main_v1_apply,
    col_to_vec, col_to_vec', lhs_at, rhs_at]
  rfl

/-- The reference's second column: the slow recovery rate. -/
theorem second_column (x1 : (⟨S16384, .f32⟩ : BufTy).Contents (Elt Ideal)) (x3 : (⟨S8192x1, .f32⟩ : BufTy).Contents (Elt Ideal)) :
    val_main_v23 (F := Ideal) x1 x3 = pde2 (val_main_v0 (F := Ideal) x1) (val_main_v2 (F := Ideal) x1) x3 := by
  funext i
  simp only [val_main_v23_apply, val_main_v22_apply, val_main_cst_3_apply, val_main_v21_apply, val_main_v20_apply,
    val_main_v16_apply, val_main_v15_apply, val_main_cst_1_apply, val_main_v19_apply, val_main_v17_apply,
    val_main_v18_apply, val_main_cst_2_apply, val_main_v3_apply, val_main_v1_apply, col_to_vec, col_to_vec']
  rfl

end Cert.ReferenceIdeal.Stages

end
-- ==== Proof.LibColumn.lean ====
/-
  A vector viewed as a one-column matrix, read at an index.

  Reshaping an `[a]` array to `[a, 1]` keeps every entry's row-major position, so entry `(i, 0)` of the column is
  entry `i` of the vector. (The library states the companion facts for a leading unit axis, `[a] → [1, a]`; this is the
  trailing one, which every keep-dimensions row reduction produces.)
-/
import Idealize.ShloMosaic.Lib.Pipeline.Value
import Idealize.ShloMosaic.Lib.ValueIdx

namespace Idealize.ShloMosaic.ColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.RowSum.lean ====
/-
  The kernel body's two stored values, read one entry at a time.

  At a grid point the body holds a 256 × 8192 block `s` of the operator, the whole activator as one row `urow`, and the
  point's 256 entries of `u`, `v` and `par` as columns. It multiplies `s` by `urow` laid along every row and adds each
  row's 8192 products: entry `p` of that sum is `∑ k, s p k · urow 0 k`, the diffusion term of the block's row `p`. The
  rest is entrywise, so entry `(p, q)` of the first stored value is `Reaction.excite` of that sum and the three column
  entries, and of the second `Reaction.recover` of the three column entries.
-/
import proofs.«147740_j16355235463647_1_alg».proof.Proof.Gen.KernelIdeal.Skeleton
import proofs.«147740_j16355235463647_1_alg».proof.Proof.Reaction
import proofs.«147740_j16355235463647_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.Reaction
open Idealize.ShloMosaic Idealize.ShloMosaic.ValueIdx Idealize.ShloMosaic.ColumnCast

/-- Adding a 256 × 8192 block along its rows: entry `p` of the result is the sum of row `p`. -/
theorem row_sum (w : FVec Ideal S256x8192 .f32) (p : Fin 256) :
    multiReduction .add [1] S256 w 0x00000000#32 reduces_S256x8192_S256 (.inl rfl) rfl (ix1 p) = ∑ k : Fin 8192, w (ix2 p k) := by
  refine (Ideal.multiReduction_add_single w 0x00000000#32 reduces_S256x8192_S256 (.inl rfl) rfl (ix1 p)).trans ?_
  refine Finset.sum_congr rfl fun k _ => congrArg w ?_
  funext a
  match a with
  | ⟨0, _⟩ => rfl
  | ⟨1, _⟩ => rfl

/-- The first stored value at `(p, q)`: the activator's rate from the block's row sum and the column entries. -/
theorem first_payload (s : FVec Ideal S256x8192 .f32) (urow : FVec Ideal S1x8192 .f32) (u v par : FVec Ideal S256x1 .f32)
    (p : Fin 256) (q : Fin 1) :
    k0_pay3 (F := Ideal) s urow u v par (ix2 p q)
      = excite (∑ k : Fin 8192, s (ix2 p k) * urow (ix2 (0 : Fin 1) k)) (u (ix2 p q)) (v (ix2 p q)) (par (ix2 p q)) := by
  unfold k0_pay3 k0_pay1 k0_pay2
  simp only [shapeCast_self]
  have hd : shapeCast S256x1 (multiReduction .add [1] S256 (mulf s (broadcastTo S256x8192 urow broadcasts_S1x8192_S256x8192))
        0x00000000#32 reduces_S256x8192_S256 (.inl rfl) rfl) shapeCasts_S256_S256x1 (ix2 p q)
      = ∑ k : Fin 8192, s (ix2 p k) * urow (ix2 (0 : Fin 1) k) := by
    refine (shapeCast_a_a1_apply _ shapeCasts_S256_S256x1 p q).trans ?_
    refine (row_sum _ p).trans ?_
    refine Finset.sum_congr rfl fun k _ => ?_
    exact congrArg (s (ix2 p k) * ·) (broadcastTo_1b_ab_apply urow broadcasts_S1x8192_S256x8192 p k)
  exact congrArg (fun d => d + rate * u (ix2 p q) * (unit - u (ix2 p q)) * (u (ix2 p q) - par (ix2 p q)) - u (ix2 p q) * v (ix2 p q)) hd

/-- The second stored value at an index: the recovery variable's rate from the column entries. -/
theorem second_payload (u v par : FVec Ideal S256x1 .f32) (j : S256x1.Idx) :
    k0_pay4 (F := Ideal) u v par j = recover (u j) (v j) (par j) := by
  unfold k0_pay4 k0_pay1 k0_pay2
  simp only [shapeCast_self]
  rfl

end Cert.KernelIdeal.Body

end
-- ==== Proof.Blocks.lean ====
/-
  From the grid points' blocks to the two whole columns.

  The grid has 32 points. Point `t` is handed rows `256·t … 256·t + 255` of the operator `S`, the whole activator as one
  row, and the same 256 rows of the three columns `u`, `v`, `par`; it writes back rows `256·t … 256·t + 255` of the two
  result columns. The activator's row and its column are two views of ONE vector, the first half of the state `y`, and
  the `v` column a view of its second half, all three made by reshapes before the grid starts.

  So what point `t` writes into the first result column is, entry by entry, `Reaction.pde1` of the two halves, `S` and
  `par` at the block's rows (the body's row sum is the diffusion term of the global row `256·t + p`), and likewise
  `Reaction.pde2` for the second. Every row lies in exactly one point's block, `r / 256`, so after the last point the two
  result columns ARE `pde1` and `pde2`.
-/
import proofs.«147740_j16355235463647_1_alg».proof.Proof.Gen.KernelIdeal.Frame
import proofs.«147740_j16355235463647_1_alg».proof.Proof.RowSum
import Idealize.ShloMosaic.Lib.Pipeline.Value
import Idealize.ShloMosaic.Lib.ValueLayout
import Idealize.ShloMosaic.Lib.StableHlo.Run

noncomputable section

open scoped BigOperators

namespace Cert.KernelIdeal.Arrays

open Cert.KernelIdeal Cert.KernelIdeal.Gen Cert.KernelIdeal.Body Cert.Reaction
open Idealize.ShloMosaic Idealize.ShloMosaic.TcCoe Idealize.ShloMosaic.ValueIdx Idealize.ShloMosaic.ColumnCast
open Idealize.SL.Sem
open Idealize.ShloMosaic.Pipeline (Dat)

variable (m : (ℓ : Loc nD τ sig) → Buf (Elt Ideal) ℓ)

/-! ## The data as the grid finds it -/

/-- The activator: the first half of the state. -/
abbrev uHalf (c : Dev nD) : NodeVec :=
  extractStridedSlice S8192 ![0] (m ((c : Thread nD τ).loc main_arg1)) slices_S16384_S8192_0
/-- The recovery variable: the second half of the state. -/
abbrev vHalf (c : Dev nD) : NodeVec :=
  extractStridedSlice S8192 ![8192] (m ((c : Thread nD τ).loc main_arg1)) slices_S16384_S8192_8192
/-- The diffusion operator. -/
abbrev opS (c : Dev nD) : NodeMat := m ((c : Thread nD τ).loc main_arg2)
/-- The excitability column. -/
abbrev parCol (c : Dev nD) : NodeCol := m ((c : Thread nD τ).loc main_arg3)

/-- The activator as one row, as the grid finds it. -/
theorem entry_row (c : Dev nD) :
    (V m c main_v2 : S1x8192.Idx → EReal) = shapeCast S1x8192 (uHalf m c) shapeCasts_S8192_S1x8192 := by
  show StableHlo.after hostOps0 (fun b => m (c, b)) (Proc.devRef .tc main_v2) = _
  after_results
  rfl

/-- The activator as a column. -/
theorem entry_ucol (c : Dev nD) :
    (V m c main_v3 : S8192x1.Idx → EReal) = shapeCast S8192x1 (uHalf m c) shapeCasts_S8192_S8192x1 := by
  show StableHlo.after hostOps0 (fun b => m (c, b)) (Proc.devRef .tc main_v3) = _
  after_results
  rfl

/-- The recovery variable as a column. -/
theorem entry_vcol (c : Dev nD) :
    (V m c main_v4 : S8192x1.Idx → EReal) = shapeCast S8192x1 (vHalf m c) shapeCasts_S8192_S8192x1 := by
  show StableHlo.after hostOps0 (fun b => m (c, b)) (Proc.devRef .tc main_v4) = _
  after_results
  rfl

/-! ## Where each point's blocks lie -/

/-- The printed index maps, decided over the 32 points: every row-blocked window is at block `(t, 0)`, the activator's
    row at `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The global row of row `p` of point `t`'s blocks. -/
def row (t : Fin cfg0.N) (p : Fin 256) : Fin 8192 :=
  ⟨t.val * 256 + p.val, by have h := t.isLt; have hN : cfg0.N = 32 := N_0; have := p.isLt; omega⟩

theorem row_val (t : Fin cfg0.N) (p : Fin 256) : (row t p).val = t.val * 256 + p.val := rfl

/-! ## The input blocks, read at an entry -/

/-- Point `t`'s block of the operator is its rows `256·t …`. -/
theorem read_S (c : Dev nD) (t : Fin cfg0.N) (p : Fin 256) (k : Fin 8192) :
    iblk m c 0 t (ix2 p k) = opS m c (ix2 (row t p) k) := by
  obtain ⟨e0, e1, -⟩ := index_facts t
  show V m c main_arg2 (((cfg0.win 0).blk t).view.emb (ix2 p k)) = _
  rw [V_main_arg2]
  refine congrArg (opS m c) (funext fun a => Fin.ext ?_)
  match a with
  | ⟨0, _⟩ => show win0_0.index t (0 : Fin 2) * 256 + 1 * p.val = t.val * 256 + p.val; omega
  | ⟨1, _⟩ => show win0_0.index t (1 : Fin 2) * 8192 + 1 * k.val = k.val; omega

/-- Every point sees the whole activator as its one row. -/
theorem read_row (c : Dev nD) (t : Fin cfg0.N) (k : Fin 8192) :
    iblk m c 1 t (ix2 (0 : Fin 1) k) = uHalf m c (ix1 k) := by
  obtain ⟨-, -, e0, e1, -⟩ := index_facts t
  show V m c main_v2 (((cfg0.win 1).blk t).view.emb (ix2 (0 : Fin 1) k)) = _
  rw [entry_row]
  refine Eq.trans (congrArg _ (?_ : _ = ix2 (0 : Fin 1) k)) (shapeCast_a_1a_apply (uHalf m c) shapeCasts_S8192_S1x8192 0 k)
  funext a; apply Fin.ext
  match a with
  | ⟨0, _⟩ => show win0_1.index t (0 : Fin 2) * 1 + 1 * 0 = 0; omega
  | ⟨1, _⟩ => show win0_1.index t (1 : Fin 2) * 8192 + 1 * k.val = k.val; omega

/-- Point `t`'s block of the activator's column is its entries `256·t …`. -/
theorem read_u (c : Dev nD) (t : Fin cfg0.N) (p : Fin 256) (q : Fin 1) :
    iblk m c 2 t (ix2 p q) = uHalf m c (ix1 (row t p)) := by
  obtain ⟨-, -, -, -, e0, e1, -⟩ := index_facts t
  show V m c main_v3 (((cfg0.win 2).blk t).view.emb (ix2 p q)) = _
  rw [entry_ucol]
  refine Eq.trans (congrArg _ (?_ : _ = ix2 (row t p) q)) (shapeCast_a_a1_apply (uHalf m c) shapeCasts_S8192_S8192x1 (row t p) q)
  funext a; apply Fin.ext
  match a with
  | ⟨0, _⟩ => show win0_2.index t (0 : Fin 2) * 256 + 1 * p.val = t.val * 256 + p.val; omega
  | ⟨1, _⟩ => show win0_2.index t (1 : Fin 2) * 1 + 1 * q.val = q.val; omega

/-- The same for the recovery variable's column. -/
theorem read_v (c : Dev nD) (t : Fin cfg0.N) (p : Fin 256) (q : Fin 1) :
    iblk m c 3 t (ix2 p q) = vHalf m c (ix1 (row t p)) := by
  obtain ⟨-, -, -, -, -, -, e0, e1, -⟩ := index_facts t
  show V m c main_v4 (((cfg0.win 3).blk t).view.emb (ix2 p q)) = _
  rw [entry_vcol]
  refine Eq.trans (congrArg _ (?_ : _ = ix2 (row t p) q)) (shapeCast_a_a1_apply (vHalf m c) shapeCasts_S8192_S8192x1 (row t p) q)
  funext a; apply Fin.ext
  match a with
  | ⟨0, _⟩ => show win0_3.index t (0 : Fin 2) * 256 + 1 * p.val = t.val * 256 + p.val; omega
  | ⟨1, _⟩ => show win0_3.index t (1 : Fin 2) * 1 + 1 * q.val = q.val; omega

/-- And for the excitability column, which is an argument as launched. -/
theorem read_par (c : Dev nD) (t : Fin cfg0.N) (p : Fin 256) (q : Fin 1) :
    iblk m c 4 t (ix2 p q) = parCol m c (ix2 (row t p) q) := by
  obtain ⟨-, -, -, -, -, -, -, -, e0, e1, -⟩ := index_facts t
  show V m c main_arg3 (((cfg0.win 4).blk t).view.emb (ix2 p q)) = _
  rw [V_main_arg3]
  refine congrArg (parCol m c) (funext fun a => Fin.ext ?_)
  match a with
  | ⟨0, _⟩ => show win0_4.index t (0 : Fin 2) * 256 + 1 * p.val = t.val * 256 + p.val; omega
  | ⟨1, _⟩ => show win0_4.index t (1 : Fin 2) * 1 + 1 * q.val = q.val; omega

/-! ## What a point writes back -/

theorem zeros : (![0, 0] : Fin 2 → Nat) = fun _ => 0 := funext fun a => by fin_cases a <;> rfl

/-- Entry `(p, q)` of point `t`'s output blocks sits at row `256·t + p` of the result columns. -/
theorem out_at5 (t : Fin cfg0.N) (p : Fin 256) (q : Fin 1) :
    ((cfg0.win 5).blk t).view.emb (ix2 p q) = ix2 (row t p) q := by
  obtain ⟨-, -, -, -, -, -, -, -, -, -, e0, e1, -⟩ := index_facts t
  funext a; apply Fin.ext
  match a with
  | ⟨0, _⟩ => show win0_5.index t (0 : Fin 2) * 256 + 1 * p.val = t.val * 256 + p.val; omega
  | ⟨1, _⟩ => show win0_5.index t (1 : Fin 2) * 1 + 1 * q.val = q.val; omega

theorem out_at6 (t : Fin cfg0.N) (p : Fin 256) (q : Fin 1) :
    ((cfg0.win 6).blk t).view.emb (ix2 p q) = ix2 (row t p) q := by
  obtain ⟨-, -, -, -, -, -, -, -, -, -, -, -, e0, e1⟩ := index_facts t
  funext a; apply Fin.ext
  match a with
  | ⟨0, _⟩ => show win0_6.index t (0 : Fin 2) * 256 + 1 * p.val = t.val * 256 + p.val; omega
  | ⟨1, _⟩ => show win0_6.index t (1 : Fin 2) * 1 + 1 * q.val = q.val; omega

/-- Point `t` writes back its block of the activator's rate. -/
theorem wrote_first (c : Dev nD) (t : Fin cfg0.N) :
    (dats m 0 c).flushed 5 t
      = ((cfg0.win 5).blk t).view.read (Elt Ideal) (pde1 (uHalf m c) (vHalf m c) (opS m c) (parCol m c)) := by
  show (cfg0.win 5).cut (grid0.coords t) ((dats m 0 c).after 5 t) = _
  rw [after0_5]
  unfold out0_5
  rw [View.canon_unit_zero zeros]
  simp only [View.ld_unit_zero (S := S256x8192) zeros, View.ld_unit_zero (S := S1x8192) zeros, View.ld_unit_zero (S := S256x1) zeros]
  funext j
  obtain ⟨p, q, rfl⟩ : ∃ (p : Fin 256) (q : Fin 1), j = ix2 p q := ⟨j 0, j 1, eq_ix2 j⟩
  refine (first_payload (iblk m c 0 t) (iblk m c 1 t) (iblk m c 2 t) (iblk m c 3 t) (iblk m c 4 t) p q).trans ?_
  show _ = pde1 (uHalf m c) (vHalf m c) (opS m c) (parCol m c) (((cfg0.win 5).blk t).view.emb (ix2 p q))
  rw [out_at5 t p q, read_u, read_v, read_par]
  simp only [read_S, read_row]
  rfl

/-- Point `t` writes back its block of the recovery variable's rate. -/
theorem wrote_second (c : Dev nD) (t : Fin cfg0.N) :
    (dats m 0 c).flushed 6 t
      = ((cfg0.win 6).blk t).view.read (Elt Ideal) (pde2 (uHalf m c) (vHalf m c) (parCol m c)) := by
  show (cfg0.win 6).cut (grid0.coords t) ((dats m 0 c).after 6 t) = _
  rw [after0_6]
  unfold out0_6
  rw [View.canon_unit_zero zeros]
  simp only [View.ld_unit_zero (S := S256x1) zeros]
  funext j
  obtain ⟨p, q, rfl⟩ : ∃ (p : Fin 256) (q : Fin 1), j = ix2 p q := ⟨j 0, j 1, eq_ix2 j⟩
  refine (second_payload (iblk m c 2 t) (iblk m c 3 t) (iblk m c 4 t) (ix2 p q)).trans ?_
  show _ = pde2 (uHalf m c) (vHalf m c) (parCol m c) (((cfg0.win 6).blk t).view.emb (ix2 p q))
  rw [out_at6 t p q, read_u, read_v, read_par]
  rfl

/-! ## Every row is some point's -/

theorem in_block5 (t : Fin cfg0.N) (i : S8192x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v5_0).slice (win0_5.rect t)).set ↔ _
  rw [View.set_slice_whole, Rect.mem_set_unit]
  exact Iff.rfl

theorem in_block6 (t : Fin cfg0.N) (i : S8192x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v5_1).slice (win0_6.rect t)).set ↔ _
  rw [View.set_slice_whole, Rect.mem_set_unit]
  exact Iff.rfl

/-- The point that owns row `r`: `r / 256`. -/
def owner (i : S8192x1.Idx) : Fin cfg0.N :=
  ⟨(i 0).val / 256, by have h0 : (i 0).val < 8192 := (i 0).isLt; have hN : cfg0.N = 32 := N_0; omega⟩

theorem covered5 (i : S8192x1.Idx) : ∃ t : Fin cfg0.N, (cfg0.win 5).flush t = true ∧ i ∈ ((cfg0.win 5).blk t).view.set := by
  have h0 : (i 0).val < 8192 := (i 0).isLt
  have h1 : (i 1).val < 1 := (i 1).isLt
  have ht : (owner i).val = (i 0).val / 256 := rfl
  obtain ⟨-, -, -, -, -, -, -, -, -, -, e0, e1, -⟩ := index_facts (owner i)
  refine ⟨owner i, flush0_5 _, ?_⟩
  rw [in_block5]
  intro a
  match a with
  | ⟨0, _⟩ => show win0_5.index (owner i) (0 : Fin 2) * 256 ≤ (i 0).val ∧ (i 0).val < win0_5.index (owner i) (0 : Fin 2) * 256 + 256; omega
  | ⟨1, _⟩ => show win0_5.index (owner i) (1 : Fin 2) * 1 ≤ (i 1).val ∧ (i 1).val < win0_5.index (owner i) (1 : Fin 2) * 1 + 1; omega

theorem covered6 (i : S8192x1.Idx) : ∃ t : Fin cfg0.N, (cfg0.win 6).flush t = true ∧ i ∈ ((cfg0.win 6).blk t).view.set := by
  have h0 : (i 0).val < 8192 := (i 0).isLt
  have h1 : (i 1).val < 1 := (i 1).isLt
  have ht : (owner i).val = (i 0).val / 256 := rfl
  obtain ⟨-, -, -, -, -, -, -, -, -, -, -, -, e0, e1⟩ := index_facts (owner i)
  refine ⟨owner i, flush0_6 _, ?_⟩
  rw [in_block6]
  intro a
  match a with
  | ⟨0, _⟩ => show win0_6.index (owner i) (0 : Fin 2) * 256 ≤ (i 0).val ∧ (i 0).val < win0_6.index (owner i) (0 : Fin 2) * 256 + 256; omega
  | ⟨1, _⟩ => show win0_6.index (owner i) (1 : Fin 2) * 1 ≤ (i 1).val ∧ (i 1).val < win0_6.index (owner i) (1 : Fin 2) * 1 + 1; omega

/-! ## The two columns after the last point -/

/-- The first result column ends as the activator's rate at every node. -/
theorem first_result (c : Dev nD) :
    (dats m 0 c).arrAt 5 cfg0.N = pde1 (uHalf m c) (vHalf m c) (opS m c) (parCol m c) :=
  (dats m 0 c).arrAt_eq_of_cover 5 _ (fun t _ => wrote_first m c t) covered5

/-- The second result column ends as the recovery variable's rate at every node. -/
theorem second_result (c : Dev nD) :
    (dats m 0 c).arrAt 6 cfg0.N = pde2 (uHalf m c) (vHalf m c) (parCol m c) :=
  (dats m 0 c).arrAt_eq_of_cover 6 _ (fun t _ => wrote_second m c t) covered6

end Cert.KernelIdeal.Arrays

end
-- ==== Proof.Result.lean ====
/-
  The kernel program's result.

  After the grid the program flattens the two result columns and joins them end to end. Both programs compared here
  finish with exactly these three operations, so they are kept as ONE function `joined` and never opened: the programs'
  results are equal as soon as the columns that enter it are.
-/
import proofs.«147740_j16355235463647_1_alg».proof.Proof.Blocks

noncomputable section

namespace Cert.KernelIdeal.Result

open Cert.KernelIdeal Cert.KernelIdeal.Gen Cert.KernelIdeal.Arrays Cert.Reaction
open Idealize.ShloMosaic Idealize.ShloMosaic.TcCoe Idealize.ShloMosaic.ValueIdx
open Idealize.SL.Sem
open Idealize.ShloMosaic.Pipeline (Dat)

/-- Two columns flattened to vectors and joined end to end: the state's rate `[pde1; pde2]`. -/
def joined (a b : NodeCol) : S16384.Idx → EReal :=
  concatenate S16384 0 [⟨S8192, shapeCast S8192 a shapeCasts_S8192x1_S8192⟩, ⟨S8192, shapeCast S8192 b shapeCasts_S8192x1_S8192⟩]
    concatenates_S8192_S8192_S16384_d0

variable (m : (ℓ : Loc nD τ sig) → Buf (Elt Ideal) ℓ) (ρ : Dev nD → PrngReg)

/-- What the operations after the grid leave in the result buffer. -/
theorem tail_result (c : Dev nD) :
    Pipeline.afterTail₀ cfgs (dats m) 0 (V0 m) [hostOps1] c main_v8
      = joined (pde1 (uHalf m c) (vHalf m c) (opS m c) (parCol m c)) (pde2 (uHalf m c) (vHalf m c) (parCol m c)) := by
  unfold Pipeline.afterTail₀
  show StableHlo.after hostOps1 _ (Proc.devRef .tc main_v8) = _
  after_results
  have h5 : Pipeline.withArrays (cfgs 0).spec c (V0 m c) (fun w => (dats m 0 c).arrAt w (cfgs 0).N) (Proc.devRef .tc main_v5_0)
      = pde1 (uHalf m c) (vHalf m c) (opS m c) (parCol m c) :=
    (Pipeline.withArrays_arr spec0 launch0.win.arr_inj c (V0 m c) _ 5).trans (first_result m c)
  have h6 : Pipeline.withArrays (cfgs 0).spec c (V0 m c) (fun w => (dats m 0 c).arrAt w (cfgs 0).N) (Proc.devRef .tc main_v5_1)
      = pde2 (uHalf m c) (vHalf m c) (parCol m c) :=
    (Pipeline.withArrays_arr spec0 launch0.win.arr_inj c (V0 m c) _ 6).trans (second_result m c)
  rw [h5, h6]
  rfl

/-- The program's run, read: every weakly fair execution ends with the result buffer at the two rate columns joined,
    and the four arguments as launched. -/
theorem run : θ_run defs (onTc (τ := τ) (main (F := Ideal))) ⟨m, fun _ => 0, ρ⟩ (fun r => ∀ c : Dev nD,
      r.2.mem ((c.tc : Thread nD τ).loc main_v8)
        = joined (pde1 (uHalf m c) (vHalf m c) (opS m c) (parCol m c)) (pde2 (uHalf m c) (vHalf m c) (parCol m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 4).trans (((dats m 0 c).arrAt_in 4 rfl _).trans ((A_eq m c 4).trans (V_main_arg3 m c)))⟩)
    (run_main m ρ)

end Cert.KernelIdeal.Result

end
-- ==== Proof.lean ====
/-
  A reaction–diffusion right-hand side computed two ways.

  The state `y` holds an activator `u` (its first 8192 entries) and a recovery variable `v` (the last 8192); `S` is a dense
  8192 × 8192 diffusion operator and `par` a per-node excitability. Both programs return the 16384 rates

      pde1 = S·u + 8·u·(1 − u)·(u − par) − u·v        pde2 = ε·(8·u·(u − par − 1) + v)

  joined end to end. The reference forms `S·u` as one matrix product; the kernel walks `S` in 32 blocks of 256 rows,
  multiplies each block by `u` laid along its rows and adds every row's 8192 products. Entry by entry both are
  `∑ k, S r k · u k`: the same finite family of extended reals added in two orders, and addition there is commutative
  and associative, so no finiteness of the inputs is used. Every other operation is entrywise, written in the same
  order with the same three float words on both sides, and both programs finish with the same flatten-and-join.

  The modules: `Reaction` states the two rates as one function of `u`, `v`, `S`, `par`; `RefStages` reads the reference's
  two columns as that function; `RowSum` reads the kernel body's two stored values at an entry; `Blocks` goes from the
  32 points' blocks to the whole columns; `Result` carries them through the flatten-and-join. Here the five claims are
  put together. The idealized kernel is the kernel's own text read over the extended reals (nothing was rewritten), so
  there is nothing to preserve.
-/
import proofs.«147740_j16355235463647_1_alg».proof.Defs
import proofs.«147740_j16355235463647_1_alg».proof.Proof.Gen.Kernel
import proofs.«147740_j16355235463647_1_alg».proof.Proof.Gen.Kernel.Skeleton
import proofs.«147740_j16355235463647_1_alg».proof.Proof.Gen.Kernel.Launch
import proofs.«147740_j16355235463647_1_alg».proof.Proof.Gen.Kernel.Points
import proofs.«147740_j16355235463647_1_alg».proof.Proof.Gen.Kernel.Frame
import proofs.«147740_j16355235463647_1_alg».proof.Proof.Gen.KernelIdeal
import proofs.«147740_j16355235463647_1_alg».proof.Proof.Gen.KernelIdeal.Skeleton
import proofs.«147740_j16355235463647_1_alg».proof.Proof.Gen.KernelIdeal.Launch
import proofs.«147740_j16355235463647_1_alg».proof.Proof.Gen.KernelIdeal.Points
import proofs.«147740_j16355235463647_1_alg».proof.Proof.Gen.KernelIdeal.Frame
import proofs.«147740_j16355235463647_1_alg».proof.Proof.Gen.ReferenceIdeal
import proofs.«147740_j16355235463647_1_alg».proof.Proof.Gen.Pre_finite_inputs
import proofs.«147740_j16355235463647_1_alg».proof.Proof.Gen.ReferenceIdeal.Run
import proofs.«147740_j16355235463647_1_alg».proof.Proof.Gen.ReferenceIdeal.Read
import proofs.«147740_j16355235463647_1_alg».proof.Proof.RefStages
import proofs.«147740_j16355235463647_1_alg».proof.Proof.Result
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two rate columns of the shared state,
    operator and excitability, joined end to end. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).2.1, (hagree c).2.2.1, (hagree c).2.2.2]
  show Cert.KernelIdeal.Result.joined (Cert.ReferenceIdeal.Read.val_main_v14 (F := Ideal) _ _ _)
      (Cert.ReferenceIdeal.Read.val_main_v23 (F := Ideal) _ _) = _
  rw [Cert.ReferenceIdeal.Stages.first_column, Cert.ReferenceIdeal.Stages.second_column]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
